-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S128x128 .f32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S1x600000 : Shape := ⟨2, ![1, 600000]⟩
abbrev S600000 : Shape := ⟨1, ![600000]⟩
abbrev S384x128 : Shape := ⟨2, ![384, 128]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S_ : Shape := ⟨0, ![]⟩
abbrev S600000x1 : Shape := ⟨2, ![600000, 1]⟩
abbrev S600000x128 : Shape := ⟨2, ![600000, 128]⟩
abbrev S1200000x128 : Shape := ⟨2, ![1200000, 128]⟩
abbrev S1200000 : Shape := ⟨1, ![1200000]⟩
abbrev S1200000x1 : Shape := ⟨2, ![1200000, 1]⟩
abbrev S50000x1 : Shape := ⟨2, ![50000, 1]⟩
abbrev S10000x128 : Shape := ⟨2, ![10000, 128]⟩

abbrev nBuf : Space → Nat
  | .hbm => 59
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S384x128, .f32⟩
  | .hbm, ⟨10, _⟩ => ⟨S128x384, .f32⟩
  | .hbm, ⟨11, _⟩ => ⟨S50000x384, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S1200000x128, .f32⟩
  | .hbm, ⟨34, _⟩ => ⟨S1200000, .i32⟩
  | .hbm, ⟨35, _⟩ => ⟨S_, .f32⟩
  | .hbm, ⟨36, _⟩ => ⟨S50000x128, .f32⟩
  | .hbm, ⟨37, _⟩ => ⟨S1200000x1, .i32⟩
  | .hbm, ⟨38, _⟩ => ⟨S50000x128, .f32⟩
  | .hbm, ⟨39, _⟩ => ⟨S_, .f32⟩
  | .hbm, ⟨40, _⟩ => ⟨S1200000x1, .f32⟩
  | .hbm, ⟨41, _⟩ => ⟨S_, .f32⟩
  | .hbm, ⟨42, _⟩ => ⟨S50000x1, .f32⟩
  | .hbm, ⟨43, _⟩ => ⟨S1200000x1, .i32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .i1⟩
  | .hbm, ⟨48, _⟩ => ⟨S_, .f32⟩
  | .hbm, ⟨49, _⟩ => ⟨S50000x1, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S_, .f32⟩
  | .hbm, ⟨55, _⟩ => ⟨S50000x128, .i1⟩
  | .hbm, ⟨56, _⟩ => ⟨S50000x128, .f32⟩
  | .hbm, ⟨57, _⟩ => ⟨S50000x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S128x128_S128x128_S128x128_S384x128_d0 : Shape.Concatenates [S128x128, S128x128, S128x128] S384x128 0
  transposes_S384x128_S128x384_1_0 : S384x128.Transposes [1, 0] S128x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S1200000x128_d0 : Shape.Concatenates [S600000x128, S600000x128] S1200000x128 0
  concatenates_S600000_S600000_S1200000_d0 : Shape.Concatenates [S600000, S600000] S1200000 0
  bcast_S_S50000x128 : S_.BroadcastsInDim S50000x128 (![] : Fin 0 → Fin S50000x128.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S5000x128_S128x384_S5000x384_1_0_0_1_n_n_wf : DotDims.WF S5000x128 S128x384 S5000x384 [1] [0] [0] [1] [] []
  gather_S50000x128_S600000x1_S600000x128_1_0_n_n_0_1_1128_wf : GatherDims.WF S50000x128 S600000x1 S600000x128 [1] [0] [] [0] [] 1 ![1, 128]
  scatter_S50000x128_S1200000x1_S1200000x128_1_0_0_1_wf : ScatterDims.WF S50000x128 S1200000x1 S1200000x128 [1] [0] [0] 1
  scatter_S50000x1_S1200000x1_S1200000x1_1_0_0_1_wf : ScatterDims.WF S50000x1 S1200000x1 S1200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def scatter_S50000x1_S1200000x1_S1200000x1_1_0_0_1 : ScatterDims S50000x1 S1200000x1 S1200000x1 where
  updateWindowDims := [1]
  insertedWindowDims := [0]
  scatterDimsToOperandDims := [0]
  indexVectorDim := 1
  wf := scatter_S50000x1_S1200000x1_S1200000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1200000x128 : Shape := ⟨2, ![1200000, 128]⟩
abbrev S1200000 : Shape := ⟨1, ![1200000]⟩
abbrev S1200000x1 : Shape := ⟨2, ![1200000, 1]⟩
abbrev S50000x1 : Shape := ⟨2, ![50000, 1]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S128x128, .f32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S128x128, .f32⟩
  | .hbm, ⟨30, _⟩ => ⟨S600000x128, .f32⟩
  | .hbm, ⟨31, _⟩ => ⟨S1200000x128, .f32⟩
  | .hbm, ⟨32, _⟩ => ⟨S1200000, .i32⟩
  | .hbm, ⟨33, _⟩ => ⟨S_, .f32⟩
  | .hbm, ⟨34, _⟩ => ⟨S50000x128, .f32⟩
  | .hbm, ⟨35, _⟩ => ⟨S1200000x1, .i32⟩
  | .hbm, ⟨36, _⟩ => ⟨S50000x128, .f32⟩
  | .hbm, ⟨37, _⟩ => ⟨S_, .f32⟩
  | .hbm, ⟨38, _⟩ => ⟨S1200000x1, .f32⟩
  | .hbm, ⟨39, _⟩ => ⟨S_, .f32⟩
  | .hbm, ⟨40, _⟩ => ⟨S50000x1, .f32⟩
  | .hbm, ⟨41, _⟩ => ⟨S1200000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .i1⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S_, .f32⟩
  | .hbm, ⟨53, _⟩ => ⟨S50000x128, .i1⟩
  | .hbm, ⟨54, _⟩ => ⟨S50000x128, .f32⟩
  | .hbm, ⟨55, _⟩ => ⟨S50000x128, .f32⟩
  | .hbm, ⟨56, _⟩ => ⟨S128x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  transposes_S128x128_S128x128_1_0 : S128x128.Transposes [1, 0] S128x128
  concatenates_S600000x128_S600000x128_S1200000x128_d0 : Shape.Concatenates [S600000x128, S600000x128] S1200000x128 0
  concatenates_S600000_S600000_S1200000_d0 : Shape.Concatenates [S600000, S600000] S1200000 0
  bcast_S_S50000x128 : S_.BroadcastsInDim S50000x128 (![] : Fin 0 → Fin S50000x128.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S1200000x1_S1200000x128_1_0_0_1_wf : ScatterDims.WF S50000x128 S1200000x1 S1200000x128 [1] [0] [0] 1
  scatter_S50000x1_S1200000x1_S1200000x1_1_0_0_1_wf : ScatterDims.WF S50000x1 S1200000x1 S1200000x1 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def scatter_S50000x1_S1200000x1_S1200000x1_1_0_0_1 : ScatterDims S50000x1 S1200000x1 S1200000x1 where
  updateWindowDims := [1]
  insertedWindowDims := [0]
  scatterDimsToOperandDims := [0]
  indexVectorDim := 1
  wf := scatter_S50000x1_S1200000x1_S1200000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelCall0.lean ====
/-
  The first pallas_call of the kernel, run at every grid point: ten row blocks of 5000 nodes, each multiplied by the
  whole 128 x 384 weight matrix. At any contents V of the arrays on entry, what each point's body leaves in its output buffer
  is a function of the point's two input blocks.
-/
import proofs.«121645_j50620484550703_1_alg».proof.Proof.Gen.Kernel.Launch
import proofs.«121645_j50620484550703_1_alg».proof.Proof.Gen.Kernel.Skeleton
import proofs.«121645_j50620484550703_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks of call 0's three windows -/

/-- Window `w`'s block at grid point `t`, cut out of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds the point's block whether or not the block was copied in at that point: an
    uncopied block is the previous point's, whose index is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's three whole-buffer rectangles -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-- What the body's one store leaves in the output buffer, from the two input blocks. -/
def out0_2 (x0 : Vec F S5000x128 .f32) (x1 : Vec F S128x384 .f32) : Vec F S5000x384 .f32 :=
  View.canon [⟨r0_2, k0_pay1 (View.ld x0 r0_0) (View.ld x1 r0_1)⟩]

/-- The store is of the whole buffer, so it covers every index. -/
theorem cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-! ## The body run once -/

set_option maxHeartbeats 1000000 in
/-- The body on whole staging buffers, the inputs' reading `x0` and `x1` and the output's anything: it ends with the inputs'
    unchanged and the output's at `out0_2 x0 x1` (the load of the output buffer before the store reads a value nothing uses). -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## What is recorded of the call, point by point -/

/-- Call 0 on core `c`: the arrays as the call finds them; after the body at point `t` each input's buffer still at its
    block and the output's at `out0_2` of the two blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body at a grid point -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the inputs' buffers hold their blocks, so the body's single run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Calls

end
-- ==== Proof.KernelCall1.lean ====
/- GENERATED by `bash lay_out.sh` in the unit directory: proof/Proof/KernelCall0.lean with call 0's names, sizes and kernel function replaced by call 1's (the sed table `call1` of lay_out.sh), under this opening comment.
  The second pallas_call of the kernel, run at every grid point: five row blocks of 10000 nodes, each the
  entrywise maximum of a sum of two blocks and zero. At any contents V of the arrays on entry, what each point's body leaves
  in its output buffer is a function of the point's two input blocks.
-/
import proofs.«121645_j50620484550703_1_alg».proof.Proof.Gen.Kernel.Launch
import proofs.«121645_j50620484550703_1_alg».proof.Proof.Gen.Kernel.Skeleton
import proofs.«121645_j50620484550703_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks of call 1's three windows -/

/-- Window `w`'s block at grid point `t`, cut out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds the point's block whether or not the block was copied in at that point: an
    uncopied block is the previous point's, whose index is the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's three whole-buffer rectangles -/

abbrev r1_0 : Rect S10000x128 := Rect.unit (s := S10000x128) ![0, 0] S10000x128.size inb_S10000x128_S10000x128_0_0
abbrev r1_1 : Rect S10000x128 := Rect.unit (s := S10000x128) ![0, 0] S10000x128.size inb_S10000x128_S10000x128_0_0
abbrev r1_2 : Rect S10000x128 := Rect.unit (s := S10000x128) ![0, 0] S10000x128.size inb_S10000x128_S10000x128_0_0

/-- What the body's one store leaves in the output buffer, from the two input blocks. -/
def out1_2 (x0 : Vec F S10000x128 .f32) (x1 : Vec F S10000x128 .f32) : Vec F S10000x128 .f32 :=
  View.canon [⟨r1_2, k1_pay1 (View.ld x0 r1_0) (View.ld x1 r1_1)⟩]

/-- The store is of the whole buffer, so it covers every index. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body run once -/

set_option maxHeartbeats 1000000 in
/-- The body on whole staging buffers, the inputs' reading `x0` and `x1` and the output's anything: it ends with the inputs'
    unchanged and the output's at `out1_2 x0 x1` (the load of the output buffer before the store reads a value nothing uses). -/
theorem sound_kernel1 (c : Dev nD) (E : Set ℕ) (i : grid1.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole)
    (x0 : Vec F S10000x128 .f32) (x1 : Vec F S10000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__fuse_kernel i arg1 harg1 arg2 harg2 arg3 harg3) K := by
  simp only [cc1__fuse_kernel_eq_skeleton]; unfold cc1__fuse_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## What is recorded of the call, point by point -/

/-- Call 1 on core `c`: the arrays as the call finds them; after the body at point `t` each input's buffer still at its
    block and the output's at `out1_2` of the two blocks; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body at a grid point -/

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the inputs' buffers hold their blocks, so the body's single run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Calls

end
-- ==== Proof.KernelRun.lean ====
/-
  The kernel's whole run: six host operations that lay the three weight matrices side by side, the first pallas_call
  (the node features times that matrix), forty-six host operations (the gathers along the edges, the two segment sums, the mean),
  the second pallas_call (add and clamp at zero). Between two stretches every array of the core is known: the contents at a
  stretch's end are the host operations applied to the contents at its start, and a call leaves in its output array the blocks its
  grid points wrote back. The run ends with every array at the last of these contents.
-/
import proofs.«121645_j50620484550703_1_alg».proof.Proof.KernelCall0
import proofs.«121645_j50620484550703_1_alg».proof.Proof.KernelCall1
import proofs.«121645_j50620484550703_1_alg».proof.Proof.Gen.Kernel.Regions

set_option maxRecDepth 16384

noncomputable section

namespace Cert.Kernel.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the stretches -/

/-- At launch. -/
abbrev W0 : Dev nD → Valuation τ sig (Elt F) := fun c b => m (c, b)
/-- After the first six host operations: on entry to the first call. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its output array holds what the ten points wrote back, every other array is as on entry. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the forty-two host operations that follow the first call, -/
abbrev W3 : Dev nD → Valuation τ sig (Elt F) := fun c => StableHlo.after hostOps1 (W2 m c)
/-- and after the four of the selection by the segment counts: on entry to the second call. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- After the second call. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ## The five arguments end as launched: no host operation writes one, and a call only reads them -/

/-- An array that is no window's of either call and that no host operation writes is, at the end, as at launch. -/
theorem W5_of_untouched (c : Dev nD) (r : Ref sig .tc) (h1 : ∀ w, Pipeline.arrRef spec1 w ≠ r) (h0 : ∀ w, Pipeline.arrRef spec0 w ≠ r)
    (ha : r ∉ hostOps1_1_W) (hb : r ∉ hostOps1_W) (hc : r ∉ hostOps0_W) :
    W5 m c (Proc.devRef .tc r) = m ((c : Thread nD τ).loc r) :=
  calc W5 m c (Proc.devRef .tc r)
    _ = W4 m c (Proc.devRef .tc r) := W5_of_ne m c r h1
    _ = W3 m c (Proc.devRef .tc r) := StableHlo.after_of_writes_sub hostOps1_1 _ hostOps1_1_writes ha
    _ = W2 m c (Proc.devRef .tc r) := StableHlo.after_of_writes_sub hostOps1 _ hostOps1_writes hb
    _ = W1 m c (Proc.devRef .tc r) := W2_of_ne m c r h0
    _ = W0 m c (Proc.devRef .tc r) := StableHlo.after_of_writes_sub hostOps0 _ hostOps0_writes hc
    _ = m ((c : Thread nD τ).loc r) := rfl

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  W5_of_untouched m c main_arg1 (by decide) (by decide) (by decide) (by decide) (by decide)
theorem W5_main_arg2 (c : Dev nD) : W5 m c (Proc.devRef .tc main_arg2) = m ((c : Thread nD τ).loc main_arg2) :=
  W5_of_untouched m c main_arg2 (by decide) (by decide) (by decide) (by decide) (by decide)
theorem W5_main_arg3 (c : Dev nD) : W5 m c (Proc.devRef .tc main_arg3) = m ((c : Thread nD τ).loc main_arg3) :=
  W5_of_untouched m c main_arg3 (by decide) (by decide) (by decide) (by decide) (by decide)
theorem W5_main_arg4 (c : Dev nD) : W5 m c (Proc.devRef .tc main_arg4) = m ((c : Thread nD τ).loc main_arg4) :=
  W5_of_untouched m c main_arg4 (by decide) (by decide) (by decide) (by decide) (by decide)

/-! ## The two calls' records and what rides along -/

abbrev adm : (p : Fin 2) → (pcfgs (F := F) p).Adm := fun p => (cfgs p).toPCfg_adm
/-- Each call recorded at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- Beside the arrays: the core's generator register at some state, and the core owing nothing. -/
abbrev R (c : Dev nD) : sProp 𝕄 := iprop((∃ r, prngReg c r) ∗ ∃ W, owes (c : Thread nD τ) (0 : CellTallies nD τ sig Unit) W)
/-- A stretch of host operations from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every array at the last contents, the generator register at some state. -/
abbrev Tₙ (c : Dev nD) : sProp 𝕄 := iprop(StableHlo.held (c : Thread nD τ) (Pipeline.ucRefs τ sig) (W5 m c) ∗ ∃ r, prngReg c r)

/-! ## The calls as stretches of the run -/

set_option backward.isDefEq.respectTransparency.types false in
/-- The first call: entered with every array at `W1`, left with every array at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every array at `W4`, left with every array at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The run's five stretches in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m) ]

set_option backward.isDefEq.respectTransparency.types false in
/-- From any memory with zero counters every weakly fair execution of the program ends, nothing faulting, and at the end every
    array of every core holds the last of the contents above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The result array ends at what the second call's five points wrote back, and the five arguments end as launched. -/
theorem run_result : θ_run defs (onTc (τ := τ) (main (F := F))) ⟨m, fun _ => 0, ρ⟩ (fun r => ∀ c : Dev nD,
      r.2.mem ((c.tc : Thread nD τ).loc main_v40) = (dat1 (V4 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v40 (by decide))).trans (W5_arr m c 2),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Calls

end
-- ==== Proof.KernelIdealCall0.lean ====
/-
  The first pallas_call of the idealized kernel, run at every grid point: ten row blocks of 5000 nodes, each multiplied by the
  whole 128 x 384 weight matrix. At any contents V of the arrays on entry, what each point's body leaves in its output buffer
  is a function of the point's two input blocks.
-/
import proofs.«121645_j50620484550703_1_alg».proof.Proof.Gen.KernelIdeal.Launch
import proofs.«121645_j50620484550703_1_alg».proof.Proof.Gen.KernelIdeal.Skeleton
import proofs.«121645_j50620484550703_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks of call 0's three windows -/

/-- Window `w`'s block at grid point `t`, cut out of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds the point's block whether or not the block was copied in at that point: an
    uncopied block is the previous point's, whose index is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's three whole-buffer rectangles -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-- What the body's one store leaves in the output buffer, from the two input blocks. -/
def out0_2 (x0 : Vec F S5000x128 .f32) (x1 : Vec F S128x384 .f32) : Vec F S5000x384 .f32 :=
  View.canon [⟨r0_2, k0_pay1 (View.ld x0 r0_0) (View.ld x1 r0_1)⟩]

/-- The store is of the whole buffer, so it covers every index. -/
theorem cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-! ## The body run once -/

set_option maxHeartbeats 1000000 in
/-- The body on whole staging buffers, the inputs' reading `x0` and `x1` and the output's anything: it ends with the inputs'
    unchanged and the output's at `out0_2 x0 x1` (the load of the output buffer before the store reads a value nothing uses). -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## What is recorded of the call, point by point -/

/-- Call 0 on core `c`: the arrays as the call finds them; after the body at point `t` each input's buffer still at its
    block and the output's at `out0_2` of the two blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body at a grid point -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the inputs' buffers hold their blocks, so the body's single run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Calls

end
-- ==== Proof.KernelIdealCall1.lean ====
/- The second pallas_call of the idealized kernel, run at every grid point: five row blocks of 10000 nodes, each the
  entrywise maximum of a sum of two blocks and zero. At any contents V of the arrays on entry, what each point's body leaves
  in its output buffer is a function of the point's two input blocks.
-/
import proofs.«121645_j50620484550703_1_alg».proof.Proof.Gen.KernelIdeal.Launch
import proofs.«121645_j50620484550703_1_alg».proof.Proof.Gen.KernelIdeal.Skeleton
import proofs.«121645_j50620484550703_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks of call 1's three windows -/

/-- Window `w`'s block at grid point `t`, cut out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds the point's block whether or not the block was copied in at that point: an
    uncopied block is the previous point's, whose index is the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's three whole-buffer rectangles -/

abbrev r1_0 : Rect S10000x128 := Rect.unit (s := S10000x128) ![0, 0] S10000x128.size inb_S10000x128_S10000x128_0_0
abbrev r1_1 : Rect S10000x128 := Rect.unit (s := S10000x128) ![0, 0] S10000x128.size inb_S10000x128_S10000x128_0_0
abbrev r1_2 : Rect S10000x128 := Rect.unit (s := S10000x128) ![0, 0] S10000x128.size inb_S10000x128_S10000x128_0_0

/-- What the body's one store leaves in the output buffer, from the two input blocks. -/
def out1_2 (x0 : Vec F S10000x128 .f32) (x1 : Vec F S10000x128 .f32) : Vec F S10000x128 .f32 :=
  View.canon [⟨r1_2, k1_pay1 (View.ld x0 r1_0) (View.ld x1 r1_1)⟩]

/-- The store is of the whole buffer, so it covers every index. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body run once -/

set_option maxHeartbeats 1000000 in
/-- The body on whole staging buffers, the inputs' reading `x0` and `x1` and the output's anything: it ends with the inputs'
    unchanged and the output's at `out1_2 x0 x1` (the load of the output buffer before the store reads a value nothing uses). -/
theorem sound_kernel1 (c : Dev nD) (E : Set ℕ) (i : grid1.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole)
    (x0 : Vec F S10000x128 .f32) (x1 : Vec F S10000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__fuse_kernel i arg1 harg1 arg2 harg2 arg3 harg3) K := by
  simp only [cc1__fuse_kernel_eq_skeleton]; unfold cc1__fuse_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## What is recorded of the call, point by point -/

/-- Call 1 on core `c`: the arrays as the call finds them; after the body at point `t` each input's buffer still at its
    block and the output's at `out1_2` of the two blocks; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body at a grid point -/

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the inputs' buffers hold their blocks, so the body's single run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Calls

end
-- ==== Proof.KernelIdealRun.lean ====
/-
  The idealized kernel's whole run: six host operations that lay the three weight matrices side by side, the first pallas_call
  (the node features times that matrix), forty-six host operations (the gathers along the edges, the two segment sums, the mean),
  the second pallas_call (add and clamp at zero). Between two stretches every array of the core is known: the contents at a
  stretch's end are the host operations applied to the contents at its start, and a call leaves in its output array the blocks its
  grid points wrote back. The run ends with every array at the last of these contents.
-/
import proofs.«121645_j50620484550703_1_alg».proof.Proof.KernelIdealCall0
import proofs.«121645_j50620484550703_1_alg».proof.Proof.KernelIdealCall1
import proofs.«121645_j50620484550703_1_alg».proof.Proof.Gen.KernelIdeal.Regions

set_option maxRecDepth 16384

noncomputable section

namespace Cert.KernelIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the stretches -/

/-- At launch. -/
abbrev W0 : Dev nD → Valuation τ sig (Elt F) := fun c b => m (c, b)
/-- After the first six host operations: on entry to the first call. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its output array holds what the ten points wrote back, every other array is as on entry. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the forty-two host operations that follow the first call, -/
abbrev W3 : Dev nD → Valuation τ sig (Elt F) := fun c => StableHlo.after hostOps1 (W2 m c)
/-- and after the four of the selection by the segment counts: on entry to the second call. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- After the second call. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ## The five arguments end as launched: no host operation writes one, and a call only reads them -/

/-- An array that is no window's of either call and that no host operation writes is, at the end, as at launch. -/
theorem W5_of_untouched (c : Dev nD) (r : Ref sig .tc) (h1 : ∀ w, Pipeline.arrRef spec1 w ≠ r) (h0 : ∀ w, Pipeline.arrRef spec0 w ≠ r)
    (ha : r ∉ hostOps1_1_W) (hb : r ∉ hostOps1_W) (hc : r ∉ hostOps0_W) :
    W5 m c (Proc.devRef .tc r) = m ((c : Thread nD τ).loc r) :=
  calc W5 m c (Proc.devRef .tc r)
    _ = W4 m c (Proc.devRef .tc r) := W5_of_ne m c r h1
    _ = W3 m c (Proc.devRef .tc r) := StableHlo.after_of_writes_sub hostOps1_1 _ hostOps1_1_writes ha
    _ = W2 m c (Proc.devRef .tc r) := StableHlo.after_of_writes_sub hostOps1 _ hostOps1_writes hb
    _ = W1 m c (Proc.devRef .tc r) := W2_of_ne m c r h0
    _ = W0 m c (Proc.devRef .tc r) := StableHlo.after_of_writes_sub hostOps0 _ hostOps0_writes hc
    _ = m ((c : Thread nD τ).loc r) := rfl

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  W5_of_untouched m c main_arg1 (by decide) (by decide) (by decide) (by decide) (by decide)
theorem W5_main_arg2 (c : Dev nD) : W5 m c (Proc.devRef .tc main_arg2) = m ((c : Thread nD τ).loc main_arg2) :=
  W5_of_untouched m c main_arg2 (by decide) (by decide) (by decide) (by decide) (by decide)
theorem W5_main_arg3 (c : Dev nD) : W5 m c (Proc.devRef .tc main_arg3) = m ((c : Thread nD τ).loc main_arg3) :=
  W5_of_untouched m c main_arg3 (by decide) (by decide) (by decide) (by decide) (by decide)
theorem W5_main_arg4 (c : Dev nD) : W5 m c (Proc.devRef .tc main_arg4) = m ((c : Thread nD τ).loc main_arg4) :=
  W5_of_untouched m c main_arg4 (by decide) (by decide) (by decide) (by decide) (by decide)

/-! ## The two calls' records and what rides along -/

abbrev adm : (p : Fin 2) → (pcfgs (F := F) p).Adm := fun p => (cfgs p).toPCfg_adm
/-- Each call recorded at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- Beside the arrays: the core's generator register at some state, and the core owing nothing. -/
abbrev R (c : Dev nD) : sProp 𝕄 := iprop((∃ r, prngReg c r) ∗ ∃ W, owes (c : Thread nD τ) (0 : CellTallies nD τ sig Unit) W)
/-- A stretch of host operations from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every array at the last contents, the generator register at some state. -/
abbrev Tₙ (c : Dev nD) : sProp 𝕄 := iprop(StableHlo.held (c : Thread nD τ) (Pipeline.ucRefs τ sig) (W5 m c) ∗ ∃ r, prngReg c r)

/-! ## The calls as stretches of the run -/

set_option backward.isDefEq.respectTransparency.types false in
/-- The first call: entered with every array at `W1`, left with every array at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every array at `W4`, left with every array at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The run's five stretches in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m) ]

set_option backward.isDefEq.respectTransparency.types false in
/-- From any memory with zero counters every weakly fair execution of the program ends, nothing faulting, and at the end every
    array of every core holds the last of the contents above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The result array ends at what the second call's five points wrote back, and the five arguments end as launched. -/
theorem run_result : θ_run defs (onTc (τ := τ) (main (F := F))) ⟨m, fun _ => 0, ρ⟩ (fun r => ∀ c : Dev nD,
      r.2.mem ((c.tc : Thread nD τ).loc main_v40) = (dat1 (V4 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v40 (by decide))).trans (W5_arr m c 2),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Calls

end
-- ==== Proof.LibNary3.lean ====
/-
  A host operation over a literal family of three operand buffers (a concatenation of three arrays) writes, at its result
  buffer, its function of the three operands' contents, each read at its own buffer.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- The result of a three-operand host operation at its own result buffer: the operation's function applied to the family
    whose members are the contents of the first, the second and the third operand buffer. Stated with each operand at its own
    literal buffer, so that what each operand holds can be rewritten further. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KernelIdealHost.lean ====
/-
  What the host operations around the two calls compute, array by array: the matrix handed to the first call is the three weight
  matrices stacked (384 x 128) and transposed; the first call's left factor is the node features; the second call's first input
  is the leftmost 128 columns of the first call's output; the two rows of the edge list, as the later operations read them, are
  the edge array's rows.
-/
import proofs.«121645_j50620484550703_1_alg».proof.Proof.KernelIdealRun
import proofs.«121645_j50620484550703_1_alg».proof.Proof.LibNary3
import Idealize.ShloMosaic.Lib.StableHlo.Run

set_option maxRecDepth 16384

noncomputable section

namespace Cert.KernelIdeal.Calls

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ)

/-- No host operation before the first call writes the node features. -/
theorem V1_arg0 (c : Dev nD) : V1 m c main_arg0 = m ((c : Thread nD τ).loc main_arg0) :=
  StableHlo.after_of_writes_sub hostOps0 _ hostOps0_writes (by decide)

/-- The matrix the first call multiplies by: the three weight matrices stacked, transposed. -/
theorem V1_v5 (c : Dev nD) : V1 m c main_v5
    = transpose S128x384 [1, 0] (concatenate S384x128 0 [⟨S128x128, m ((c : Thread nD τ).loc main_arg2)⟩, ⟨S128x128, m ((c : Thread nD τ).loc main_arg3)⟩, ⟨S128x128, m ((c : Thread nD τ).loc main_arg4)⟩] concatenates_S128x128_S128x128_S128x128_S384x128_d0) transposes_S384x128_S128x384_1_0 := by
  show StableHlo.after hostOps0 (W0 m c) (Proc.devRef .tc main_v5) = _
  simp only [hostOps0, StableHlo.after_cons, StableHlo.after_nil]
  rw [StableHlo.unary_result, Cert.LibNary3.nary3_result]
  repeat (first
    | (rw [StableHlo.reshape_result_ne]; rotate_left; decide)
    | (rw [StableHlo.unary_result_ne]; rotate_left; decide))
  rfl

/-- The first row of the edge array, flattened, as the operations after the first call read it. -/
theorem W2_v1 (c : Dev nD) : W2 m c (Proc.devRef .tc main_v1)
    = shapeCast S600000 (extractStridedSlice S1x600000 ![0, 0] (m ((c : Thread nD τ).loc main_arg1)) slices_S2x600000_S1x600000_0_0) shapeCasts_S1x600000_S600000 := by
  rw [W2_of_ne m c main_v1 (by decide)]
  show StableHlo.after hostOps0 (W0 m c) (Proc.devRef .tc main_v1) = _
  simp only [hostOps0]
  after_results
  rfl

/-- The second row. -/
theorem W2_v3 (c : Dev nD) : W2 m c (Proc.devRef .tc main_v3)
    = shapeCast S600000 (extractStridedSlice S1x600000 ![1, 0] (m ((c : Thread nD τ).loc main_arg1)) slices_S2x600000_S1x600000_1_0) shapeCasts_S1x600000_S600000 := by
  rw [W2_of_ne m c main_v3 (by decide)]
  show StableHlo.after hostOps0 (W0 m c) (Proc.devRef .tc main_v3) = _
  simp only [hostOps0]
  after_results
  rfl

/-- The second call's first input: the leftmost 128 columns of the first call's output. -/
theorem V4_v7 (c : Dev nD) : V4 m c main_v7
    = extractStridedSlice S50000x128 ![0, 0] (W2 m c (Proc.devRef .tc main_v6)) slices_S50000x384_S50000x128_0_0 := by
  show StableHlo.after hostOps1_1 (StableHlo.after hostOps1 (W2 m c)) (Proc.devRef .tc main_v7) = _
  simp only [hostOps1, hostOps1_1]
  after_results

end Cert.KernelIdeal.Calls

end
-- ==== Proof.KernelIdealValue0.lean ====
/-
  The first call's output array after its ten grid points: the matrix product of the node features (50000 x 128) with the
  128 x 384 matrix the call is handed. Each point multiplies the block of rows 5000 t … 5000 t + 4999 by the whole matrix
  (rounding to half precision is the identity on extended reals, and the product starts from a zero accumulator), and the ten
  row blocks tile the array.
-/
import proofs.«121645_j50620484550703_1_alg».proof.Proof.KernelIdealCall0
import Idealize.ShloMosaic.Lib.Pipeline.Value
import Idealize.ShloMosaic.Lib.ValueIdx
import Idealize.ShloMosaic.PureOps.Ideal.Laws

set_option maxRecDepth 16384

noncomputable section

namespace Cert.KernelIdeal.Calls

open Idealize.ShloMosaic Idealize.ShloMosaic.TcCoe
open Idealize.SL Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem origin_zero0 : (![0, 0] : Fin 2 → Nat) = fun _ => 0 := funext fun a => by fin_cases a <;> rfl

/-! ## The product, index by index -/

/-- Row `i 0` of the left factor at column `k`. -/
abbrev leftAt (i : S50000x384.Idx) (k : Fin 128) : S50000x128.Idx := fun a => match a with
  | ⟨0, _⟩ => ⟨(i 0).val, (i 0).isLt⟩
  | ⟨1, _⟩ => ⟨k.val, k.isLt⟩
/-- Column `i 1` of the right factor at row `k`. -/
abbrev rightAt (i : S50000x384.Idx) (k : Fin 128) : S128x384.Idx := fun a => match a with
  | ⟨0, _⟩ => ⟨k.val, k.isLt⟩
  | ⟨1, _⟩ => ⟨(i 1).val, (i 1).isLt⟩
/-- The matrix product of a 50000 x 128 array with a 128 x 384 array. -/
abbrev matProd (x : S50000x128.Idx → Elt Ideal .f32) (w : S128x384.Idx → Elt Ideal .f32) : S50000x384.Idx → Elt Ideal .f32 :=
  fun i => ∑ k : Fin 128, x (leftAt i k) * w (rightAt i k)

/-- The same inside one block of 5000 rows. -/
abbrev leftAtB (y : S5000x384.Idx) (k : Fin 128) : S5000x128.Idx := fun a => match a with
  | ⟨0, _⟩ => ⟨(y 0).val, (y 0).isLt⟩
  | ⟨1, _⟩ => ⟨k.val, k.isLt⟩
abbrev rightAtB (y : S5000x384.Idx) (k : Fin 128) : S128x384.Idx := fun a => match a with
  | ⟨0, _⟩ => ⟨k.val, k.isLt⟩
  | ⟨1, _⟩ => ⟨(y 1).val, (y 1).isLt⟩

theorem lhsB_0 (y : S5000x384.Idx) (q : dot_S5000x128_S128x384_S5000x384_1_0_0_1_n_n.contr.Idx) :
    (dot_S5000x128_S128x384_S5000x384_1_0_0_1_n_n.lhsIdx y q 0).val = (y 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem lhsB_1 (y : S5000x384.Idx) (q : dot_S5000x128_S128x384_S5000x384_1_0_0_1_n_n.contr.Idx) :
    (dot_S5000x128_S128x384_S5000x384_1_0_0_1_n_n.lhsIdx y q 1).val = (q ⟨0, by decide⟩).val :=
  dot_S5000x128_S128x384_S5000x384_1_0_0_1_n_n.lhsIdx_val_of_single rfl y q
theorem rhsB_0 (y : S5000x384.Idx) (q : dot_S5000x128_S128x384_S5000x384_1_0_0_1_n_n.contr.Idx) :
    (dot_S5000x128_S128x384_S5000x384_1_0_0_1_n_n.rhsIdx y q 0).val = (q ⟨0, by decide⟩).val :=
  dot_S5000x128_S128x384_S5000x384_1_0_0_1_n_n.rhsIdx_val_of_single rfl y q
theorem rhsB_1 (y : S5000x384.Idx) (q : dot_S5000x128_S128x384_S5000x384_1_0_0_1_n_n.contr.Idx) :
    (dot_S5000x128_S128x384_S5000x384_1_0_0_1_n_n.rhsIdx y q 1).val = (y 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- The body's stored value at an entry of the block: the row of the first block against the column of the second. -/
theorem pay0_apply (x0 : Vec Ideal S5000x128 .f32) (x1 : Vec Ideal S128x384 .f32) (y : S5000x384.Idx) :
    k0_pay1 x0 x1 y = ∑ k : Fin 128, x0 (leftAtB y k) * x1 (rightAtB y k) := by
  unfold k0_pay1
  simp only [shapeCast_self, matmul]
  rw [Ideal.matmul_constant_zero_apply, ← Equiv.sum_comp (ValueIdx.contrEquiv1 dot_S5000x128_S128x384_S5000x384_1_0_0_1_n_n 128 rfl rfl).symm]
  refine Finset.sum_congr rfl fun k _ => ?_
  have hk := ValueIdx.contrEquiv1_symm_val dot_S5000x128_S128x384_S5000x384_1_0_0_1_n_n 128 rfl rfl k
  have el : dot_S5000x128_S128x384_S5000x384_1_0_0_1_n_n.lhsIdx y ((ValueIdx.contrEquiv1 dot_S5000x128_S128x384_S5000x384_1_0_0_1_n_n 128 rfl rfl).symm k) = leftAtB y k := funext fun a => Fin.ext (by
    match a with
    | ⟨0, _⟩ => exact lhsB_0 _ _
    | ⟨1, _⟩ => exact (lhsB_1 _ _).trans hk)
  have er : dot_S5000x128_S128x384_S5000x384_1_0_0_1_n_n.rhsIdx y ((ValueIdx.contrEquiv1 dot_S5000x128_S128x384_S5000x384_1_0_0_1_n_n 128 rfl rfl).symm k) = rightAtB y k := funext fun a => Fin.ext (by
    match a with
    | ⟨0, _⟩ => exact (rhsB_0 _ _).trans hk
    | ⟨1, _⟩ => exact rhsB_1 _ _)
  rw [el, er]
  rfl

theorem pay0_eq (x0 : Vec Ideal S5000x128 .f32) (x1 : Vec Ideal S128x384 .f32) :
    k0_pay1 x0 x1 = fun y => ∑ k : Fin 128, x0 (leftAtB y k) * x1 (rightAtB y k) := funext (pay0_apply x0 x1)

/-! ## From the ten blocks to the array -/

/-- The first and third windows move together down the rows, one block of 5000 per point; the second stays on the whole matrix. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9 ∧ win0_2.index t (1 : Fin 2) = 0 :=
  (by decide +kernel : ∀ t : Fin grid0.N, _)

/-- Every one of the ten row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- The two input arrays as the call finds them. -/
abbrev inX (c : Dev nD) : S50000x128.Idx → Elt Ideal .f32 := V c main_arg0
abbrev inW (c : Dev nD) : S128x384.Idx → Elt Ideal .f32 := V c main_v5

/-- What point `t` writes back is block `t` of the product of the two input arrays. -/
theorem flushed0_eq (c : Dev nD) (t : Fin cfg0.N) :
    (dat0 V c).flushed 2 t = ((cfg0.win 2).blk t).view.read (Elt Ideal) (matProd (V c main_arg0) (V c main_v5)) := by
  show (cfg0.win 2).cut (grid0.coords t) ((dat0 V c).after 2 t) = _
  rw [after0_2]
  unfold out0_2
  rw [View.canon_unit_zero origin_zero0]
  simp only [View.ld_unit_zero (S := S5000x128) origin_zero0, View.ld_unit_zero (S := S128x384) origin_zero0]
  rw [pay0_eq]
  obtain ⟨e0, e1, e2, e3, e4, e5⟩ := idx_facts0 t
  funext j
  show ∑ k : Fin 128, inX V c (((cfg0.win 0).blk t).view.emb (leftAtB j k)) * inW V c (((cfg0.win 1).blk t).view.emb (rightAtB j k))
    = ∑ k : Fin 128, inX V c (leftAt (((cfg0.win 2).blk t).view.emb j) k) * inW V c (rightAt (((cfg0.win 2).blk t).view.emb j) k)
  refine Finset.sum_congr rfl fun k _ => ?_
  have h0 : ((cfg0.win 0).blk t).view.emb (leftAtB j k) = leftAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rightAtB j k) = rightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 384 + 1 * (j 1).val = win0_2.index t (1 : Fin 2) * 384 + 1 * (j 1).val; omega
  rw [h0, h1]

/-- An index lies in point `t`'s block iff each coordinate lies in the block's range. -/
theorem mem_blk0 (t : Fin cfg0.N) (i : S50000x384.Idx) :
    i ∈ ((cfg0.win 2).blk t).view.set ↔ ∀ a : Fin 2, win0_2.index t a * S5000x384.size a ≤ (i a).val ∧ (i a).val < win0_2.index t a * S5000x384.size a + S5000x384.size a := by
  show i ∈ ((View.whole main_v6).slice (win0_2.rect t)).set ↔ _
  rw [View.set_slice_whole, Rect.mem_set_unit]
  exact Iff.rfl

/-- Every index is in the block of the point whose number is the row divided by 5000. -/
theorem cover0 (i : S50000x384.Idx) : ∃ t : Fin cfg0.N, (cfg0.win 2).flush t = true ∧ i ∈ ((cfg0.win 2).blk t).view.set := by
  have hi0 : (i 0).val < 50000 := (i 0).isLt
  have hi1 : (i 1).val < 384 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 384 ≤ (i 1).val ∧ (i 1).val < win0_2.index t (1 : Fin 2) * 384 + 384; omega

/-- The output array after the call. -/
theorem final0 (c : Dev nD) : (dat0 V c).arrAt 2 cfg0.N = matProd (V c main_arg0) (V c main_v5) :=
  (dat0 V c).arrAt_eq_of_cover 2 _ (fun t _ => flushed0_eq V c t) cover0

end Cert.KernelIdeal.Calls

end
-- ==== Proof.KernelIdealValue1.lean ====
/-
  The second call's output array after its five grid points: at every index the sum of the two input arrays' entries,
  clamped below at zero. Each point writes back the block of rows 10000 t … 10000 t + 9999, and the five blocks tile the array.
-/
import proofs.«121645_j50620484550703_1_alg».proof.Proof.KernelIdealCall1
import Idealize.ShloMosaic.Lib.Pipeline.Value
import Idealize.ShloMosaic.Lib.ValueIdx
import Idealize.ShloMosaic.PureOps.Ideal.Laws

set_option maxRecDepth 16384

noncomputable section

namespace Cert.KernelIdeal.Calls

open Idealize.ShloMosaic Idealize.ShloMosaic.TcCoe
open Idealize.SL Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem origin_zero1 : (![0, 0] : Fin 2 → Nat) = fun _ => 0 := funext fun a => by fin_cases a <;> rfl

/-- The sum of two arrays clamped below at zero, entry by entry. -/
abbrev clampSum (a0 a1 : S50000x128.Idx → Elt Ideal .f32) : S50000x128.Idx → Elt Ideal .f32 :=
  fun i => max (a0 i + a1 i) (Ideal.ofBits .f32 0x00000000#32)

/-- The body's stored value, entry by entry: the two loaded blocks' sum against zero. -/
theorem pay1_apply (x0 x1 : Vec Ideal S10000x128 .f32) (y : S10000x128.Idx) :
    k1_pay1 x0 x1 y = max (x0 y + x1 y) (Ideal.ofBits .f32 0x00000000#32) := by
  unfold k1_pay1
  simp only [shapeCast_self]
  rfl

theorem pay1_eq (x0 x1 : Vec Ideal S10000x128 .f32) :
    k1_pay1 x0 x1 = fun y => max (x0 y + x1 y) (Ideal.ofBits .f32 0x00000000#32) := funext (pay1_apply x0 x1)

/-- All three windows move together down the rows, one block of 10000 per point. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 4 ∧ win1_2.index t (1 : Fin 2) = 0 :=
  (by decide +kernel : ∀ t : Fin grid1.N, _)

/-- Every one of the five row blocks is some point's. -/
theorem idx_onto1 : ∀ q0 : Fin 5, ∃ t : Fin cfg1.N, win1_2.index t = ![q0.val, 0] :=
  (by decide +kernel : ∀ q0 : Fin 5, ∃ t : Fin grid1.N, win1_2.index t = ![q0.val, 0])

/-- The two input arrays as the call finds them. -/
abbrev inA (c : Dev nD) : S50000x128.Idx → Elt Ideal .f32 := V c main_v7
abbrev inB (c : Dev nD) : S50000x128.Idx → Elt Ideal .f32 := V c main_v39

/-- What point `t` writes back is block `t` of the clamped sum of the two input arrays. -/
theorem flushed1_eq (c : Dev nD) (t : Fin cfg1.N) :
    (dat1 V c).flushed 2 t = ((cfg1.win 2).blk t).view.read (Elt Ideal) (clampSum (V c main_v7) (V c main_v39)) := by
  show (cfg1.win 2).cut (grid1.coords t) ((dat1 V c).after 2 t) = _
  rw [after1_2]
  unfold out1_2
  rw [View.canon_unit_zero origin_zero1]
  simp only [View.ld_unit_zero (S := S10000x128) origin_zero1]
  rw [pay1_eq]
  obtain ⟨e0, e1, e2, e3, e4, e5⟩ := idx_facts1 t
  funext j
  show max (inA V c (((cfg1.win 0).blk t).view.emb j) + inB V c (((cfg1.win 1).blk t).view.emb j)) _
    = max (inA V c (((cfg1.win 2).blk t).view.emb j) + inB V c (((cfg1.win 2).blk t).view.emb j)) _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 128 + 1 * (j 1).val = win1_2.index t (1 : Fin 2) * 128 + 1 * (j 1).val; omega
  rw [h0, h1]

/-- An index lies in point `t`'s block iff each coordinate lies in the block's range. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v40).slice (win1_2.rect t)).set ↔ _
  rw [View.set_slice_whole, Rect.mem_set_unit]
  exact Iff.rfl

/-- Every index is in the block of the point whose number is the row divided by 10000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the call. -/
theorem final1 (c : Dev nD) : (dat1 V c).arrAt 2 cfg1.N = clampSum (V c main_v7) (V c main_v39) :=
  (dat1 V c).arrAt_eq_of_cover 2 _ (fun t _ => flushed1_eq V c t) cover1

end Cert.KernelIdeal.Calls

end
-- ==== Proof.LibGatherRows.lean ====
/-
  A gather of whole rows of a matrix (what  y = x[i, :]  lowers to), read at an entry, for ANY index word: the row read is the
  index word taken as a signed integer and clamped into the matrix's rows; the column is the result's column. In particular
  which row is read depends neither on the column nor on the matrix's contents.
-/
import Idealize.ShloMosaic.PureOps.Ideal
import Idealize.ShloMosaic.Lib.ValueIdx

noncomputable section

namespace Cert.LibGatherRows

open Idealize.ShloMosaic Idealize.ShloMosaic.ValueIdx

/-- A row gather's result at (e, c) is the operand at (i, c), where i is the e-th index word read signed and clamped into
    [0, M - 1] (negative words clamp to row 0, words past the end to the last row). -/
theorem gather_rows_clamped {α : Type} {M C E w : ℕ} (d : GatherDims ⟨2, ![M, C]⟩ ⟨2, ![E, 1]⟩ ⟨2, ![E, C]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, C])
    (x : (⟨2, ![M, C]⟩ : Shape).Idx → α) (idx : IVec ⟨2, ![E, 1]⟩ w) (e : Fin E) (c : Fin C) (i : Fin M)
    (hi : min (idx (ix2 e (0 : Fin 1))).toInt.toNat (M - 1) = i.val) :
    Host.gather d x idx (ix2 e c) = x (ix2 i c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    -- the row axis is collapsed: no offset coordinate; the start is the clamped index word
    show GatherDims.start _ (ix2 e c) idx 0 + GatherDims.batchCoord _ (ix2 e c) 0 + GatherDims.offCoord _ (ix2 e c) 0 = i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![M, C]⟩ ⟨2, ![E, 1]⟩ ⟨2, ![E, C]⟩)
        (ix2 e c) ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    exact hi
  | ⟨1, _⟩ =>
    -- the column axis is not in the start index map: the start is 0 and the offset coordinate is the result's column
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

end Cert.LibGatherRows

end
-- ==== Proof.SameLinearMaps.lean ====
/-
  The idealized kernel and the reference compute the same array.

  The reference gathers node rows along the edges and then applies a weight matrix to each gathered row; the kernel applies the
  three weight matrices to every node once (one product with the 128 x 384 matrix whose columns are the rows of W0, W1, W2) and
  gathers rows of the result. A row gather reads, at (edge e, column j), the operand at (row r(e), column j), where r(e) is the
  edge's index word clamped into the rows and does not depend on the operand: so entry (e, j) is on both sides
  the sum over k of nodes[r(e), k] * W[j, k]. Everything after the two gathers (joining the two message arrays, the two segment
  sums, the mean, the selection by the segment counts) is one and the same function of the two message arrays and the edge list
  in both programs, and so is the last step, the sum with nodes * W0^T clamped at zero.
-/
import proofs.«121645_j50620484550703_1_alg».proof.Proof.KernelIdealValue0
import proofs.«121645_j50620484550703_1_alg».proof.Proof.ReferenceIdealRead
import proofs.«121645_j50620484550703_1_alg».proof.Proof.LibGatherRows
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal.Calls Cert.ReferenceIdeal.ReadP
open scoped BigOperators

/-! ## The shapes, once -/

abbrev SNodes : Shape := ⟨2, ![50000, 128]⟩
abbrev SW : Shape := ⟨2, ![128, 128]⟩
abbrev SEdges : Shape := ⟨2, ![2, 600000]⟩
abbrev SMsg : Shape := ⟨2, ![600000, 128]⟩

/-! ## The stacked, transposed weights -/

/-- The 128 x 384 matrix the first call multiplies by. -/
abbrev stackT (w0 w1 w2 : SW.Idx → Elt Ideal .f32) : Cert.KernelIdeal.S128x384.Idx → Elt Ideal .f32 :=
  transpose Cert.KernelIdeal.S128x384 [1, 0] (concatenate Cert.KernelIdeal.S384x128 0 [⟨Cert.KernelIdeal.S128x128, w0⟩, ⟨Cert.KernelIdeal.S128x128, w1⟩, ⟨Cert.KernelIdeal.S128x128, w2⟩] Cert.KernelIdeal.Gen.concatenates_S128x128_S128x128_S128x128_S384x128_d0) Cert.KernelIdeal.Gen.transposes_S384x128_S128x384_1_0

/-- Its entry (k, c) is entry (c, k) of the three matrices stacked. -/
theorem stackT_apply (w0 w1 w2 : SW.Idx → Elt Ideal .f32) (q : Cert.KernelIdeal.S128x384.Idx) (s : Cert.KernelIdeal.S384x128.Idx)
    (h0 : (s 0).val = (q 1).val) (h1 : (s 1).val = (q 0).val) :
    stackT w0 w1 w2 q = concatenate Cert.KernelIdeal.S384x128 0 [⟨Cert.KernelIdeal.S128x128, w0⟩, ⟨Cert.KernelIdeal.S128x128, w1⟩, ⟨Cert.KernelIdeal.S128x128, w2⟩] Cert.KernelIdeal.Gen.concatenates_S128x128_S128x128_S128x128_S384x128_d0 s :=
  transpose_apply [1, 0] _ Cert.KernelIdeal.Gen.transposes_S384x128_S128x384_1_0 q s (fun b => match b with
    | ⟨0, _⟩ => h1
    | ⟨1, _⟩ => h0)

/-- The index with the two coordinates exchanged. -/
abbrev swapIdx (q : Cert.KernelIdeal.S128x384.Idx) : Cert.KernelIdeal.S384x128.Idx := fun a => match a with
  | ⟨0, _⟩ => ⟨(q 1).val, (q 1).isLt⟩
  | ⟨1, _⟩ => ⟨(q 0).val, (q 0).isLt⟩

/-- Column j of the first block of 128 columns holds row j of the first matrix, -/
theorem stackT_first (w0 w1 w2 : SW.Idx → Elt Ideal .f32) (q : Cert.KernelIdeal.S128x384.Idx) (r : SW.Idx)
    (h0 : (q 1).val = (r 0).val) (h1 : (q 0).val = (r 1).val) : stackT w0 w1 w2 q = w0 r := by
  rw [stackT_apply w0 w1 w2 q (swapIdx q) rfl rfl]
  exact concatenate_apply_piece (t := Cert.KernelIdeal.S384x128) (0 : Fin 2) [⟨Cert.KernelIdeal.S128x128, w0⟩, ⟨Cert.KernelIdeal.S128x128, w1⟩, ⟨Cert.KernelIdeal.S128x128, w2⟩] Cert.KernelIdeal.Gen.concatenates_S128x128_S128x128_S128x128_S384x128_d0 (swapIdx q) 0 (by show 0 < 3; omega) SW w0 rfl rfl 0 rfl r
    (fun b hb => match b with
      | ⟨0, _⟩ => absurd rfl hb
      | ⟨1, _⟩ => h1.symm)
    (by show 0 + (r 0).val = (q 1).val; omega)
/-- of the second block row j of the second, -/
theorem stackT_second (w0 w1 w2 : SW.Idx → Elt Ideal .f32) (q : Cert.KernelIdeal.S128x384.Idx) (r : SW.Idx)
    (h0 : (q 1).val = 128 + (r 0).val) (h1 : (q 0).val = (r 1).val) : stackT w0 w1 w2 q = w1 r := by
  rw [stackT_apply w0 w1 w2 q (swapIdx q) rfl rfl]
  exact concatenate_apply_piece (t := Cert.KernelIdeal.S384x128) (0 : Fin 2) [⟨Cert.KernelIdeal.S128x128, w0⟩, ⟨Cert.KernelIdeal.S128x128, w1⟩, ⟨Cert.KernelIdeal.S128x128, w2⟩] Cert.KernelIdeal.Gen.concatenates_S128x128_S128x128_S128x128_S384x128_d0 (swapIdx q) 1 (by show 1 < 3; omega) SW w1 rfl rfl 128 rfl r
    (fun b hb => match b with
      | ⟨0, _⟩ => absurd rfl hb
      | ⟨1, _⟩ => h1.symm)
    (by show 128 + (r 0).val = (q 1).val; omega)
/-- of the third block row j of the third. -/
theorem stackT_third (w0 w1 w2 : SW.Idx → Elt Ideal .f32) (q : Cert.KernelIdeal.S128x384.Idx) (r : SW.Idx)
    (h0 : (q 1).val = 256 + (r 0).val) (h1 : (q 0).val = (r 1).val) : stackT w0 w1 w2 q = w2 r := by
  rw [stackT_apply w0 w1 w2 q (swapIdx q) rfl rfl]
  exact concatenate_apply_piece (t := Cert.KernelIdeal.S384x128) (0 : Fin 2) [⟨Cert.KernelIdeal.S128x128, w0⟩, ⟨Cert.KernelIdeal.S128x128, w1⟩, ⟨Cert.KernelIdeal.S128x128, w2⟩] Cert.KernelIdeal.Gen.concatenates_S128x128_S128x128_S128x128_S384x128_d0 (swapIdx q) 2 (by show 2 < 3; omega) SW w2 rfl rfl 256 rfl r
    (fun b hb => match b with
      | ⟨0, _⟩ => absurd rfl hb
      | ⟨1, _⟩ => h1.symm)
    (by show 256 + (r 0).val = (q 1).val; omega)

/-! ## The node features times the stacked weights, and its three column blocks -/

/-- All three linear maps applied to every node at once. -/
abbrev allMaps (x : SNodes.Idx → Elt Ideal .f32) (w0 w1 w2 : SW.Idx → Elt Ideal .f32) : Cert.KernelIdeal.S50000x384.Idx → Elt Ideal .f32 :=
  matProd x (stackT w0 w1 w2)

/-- One linear map applied to every node: entry (n, j) is the sum over k of x[n, k] * w[j, k]. -/
def linMap (x : SNodes.Idx → Elt Ideal .f32) (w : SW.Idx → Elt Ideal .f32) (n : Fin 50000) (j : Fin 128) : Elt Ideal .f32 :=
  ∑ k : Fin 128, x (ix2 n k) * w (ix2 j k)

theorem allMaps_first (x : SNodes.Idx → Elt Ideal .f32) (w0 w1 w2 : SW.Idx → Elt Ideal .f32) (i : Cert.KernelIdeal.S50000x384.Idx)
    (n : Fin 50000) (j : Fin 128) (hn : (i 0).val = n.val) (hj : (i 1).val = j.val) :
    allMaps x w0 w1 w2 i = linMap x w0 n j := by
  show ∑ k : Fin 128, x (leftAt i k) * stackT w0 w1 w2 (rightAt i k) = ∑ k : Fin 128, x (ix2 n k) * w0 (ix2 j k)
  refine Finset.sum_congr rfl fun k _ => ?_
  rw [stackT_first w0 w1 w2 (rightAt i k) (ix2 j k) hj rfl]
  exact congrArg (fun z => x z * w0 (ix2 j k)) (funext fun a => Fin.ext (by
    match a with
    | ⟨0, _⟩ => exact hn
    | ⟨1, _⟩ => rfl))
theorem allMaps_second (x : SNodes.Idx → Elt Ideal .f32) (w0 w1 w2 : SW.Idx → Elt Ideal .f32) (i : Cert.KernelIdeal.S50000x384.Idx)
    (n : Fin 50000) (j : Fin 128) (hn : (i 0).val = n.val) (hj : (i 1).val = 128 + j.val) :
    allMaps x w0 w1 w2 i = linMap x w1 n j := by
  show ∑ k : Fin 128, x (leftAt i k) * stackT w0 w1 w2 (rightAt i k) = ∑ k : Fin 128, x (ix2 n k) * w1 (ix2 j k)
  refine Finset.sum_congr rfl fun k _ => ?_
  rw [stackT_second w0 w1 w2 (rightAt i k) (ix2 j k) hj rfl]
  exact congrArg (fun z => x z * w1 (ix2 j k)) (funext fun a => Fin.ext (by
    match a with
    | ⟨0, _⟩ => exact hn
    | ⟨1, _⟩ => rfl))
theorem allMaps_third (x : SNodes.Idx → Elt Ideal .f32) (w0 w1 w2 : SW.Idx → Elt Ideal .f32) (i : Cert.KernelIdeal.S50000x384.Idx)
    (n : Fin 50000) (j : Fin 128) (hn : (i 0).val = n.val) (hj : (i 1).val = 256 + j.val) :
    allMaps x w0 w1 w2 i = linMap x w2 n j := by
  show ∑ k : Fin 128, x (leftAt i k) * stackT w0 w1 w2 (rightAt i k) = ∑ k : Fin 128, x (ix2 n k) * w2 (ix2 j k)
  refine Finset.sum_congr rfl fun k _ => ?_
  rw [stackT_third w0 w1 w2 (rightAt i k) (ix2 j k) hj rfl]
  exact congrArg (fun z => x z * w2 (ix2 j k)) (funext fun a => Fin.ext (by
    match a with
    | ⟨0, _⟩ => exact hn
    | ⟨1, _⟩ => rfl))

/-! ## The reference's three products, entry by entry -/

/-- The reference's nodes * W^T at (n, j). -/
theorem ref_self_apply (x0 : SNodes.Idx → Elt Ideal .f32) (x2 : SW.Idx → Elt Ideal .f32) (n : Fin 50000) (j : Fin 128) :
    val_main_v39 (F := Ideal) x0 x2 (ix2 n j) = linMap x0 x2 n j := by
  rw [val_main_v39_apply]
  refine Finset.sum_congr rfl fun k _ => ?_
  rw [val_main_v38_apply]
  exact congrArg₂ (fun a b => x0 a * x2 b)
    (funext fun a => Fin.ext (by match a with | ⟨0, _⟩ => rfl | ⟨1, _⟩ => rfl))
    (funext fun a => Fin.ext (by match a with | ⟨0, _⟩ => rfl | ⟨1, _⟩ => rfl))

/-- The row a gather reads for edge e: the index word read signed, clamped into the 50000 rows. -/
def rowOf (idx : Cert.ReferenceIdeal.S600000x1.Idx → BitVec 32) (e : Fin 600000) : Fin 50000 :=
  ⟨min (idx (ix2 e (0 : Fin 1))).toInt.toNat (50000 - 1), by omega⟩

theorem gatherR_apply {α : Type} (x : SNodes.Idx → α) (idx : Cert.ReferenceIdeal.S600000x1.Idx → BitVec 32) (e : Fin 600000) (j : Fin 128) :
    Host.gather Cert.ReferenceIdeal.gather_S50000x128_S600000x1_S600000x128_1_0_n_n_0_1_1128 x idx (ix2 e j) = x (ix2 (rowOf idx e) j) :=
  Cert.LibGatherRows.gather_rows_clamped Cert.ReferenceIdeal.gather_S50000x128_S600000x1_S600000x128_1_0_n_n_0_1_1128 rfl rfl rfl rfl rfl rfl rfl x idx e j (rowOf idx e) rfl
theorem gatherK_apply {α : Type} (x : SNodes.Idx → α) (idx : Cert.ReferenceIdeal.S600000x1.Idx → BitVec 32) (e : Fin 600000) (j : Fin 128) :
    Host.gather Cert.KernelIdeal.gather_S50000x128_S600000x1_S600000x128_1_0_n_n_0_1_1128 x idx (ix2 e j) = x (ix2 (rowOf idx e) j) :=
  Cert.LibGatherRows.gather_rows_clamped Cert.KernelIdeal.gather_S50000x128_S600000x1_S600000x128_1_0_n_n_0_1_1128 rfl rfl rfl rfl rfl rfl rfl x idx e j (rowOf idx e) rfl

/-- The reference's message along the first row of the edge list, at (e, j): the linear map W1 of the gathered node row. -/
theorem ref_fwd_apply (x0 : SNodes.Idx → Elt Ideal .f32) (x1 : SEdges.Idx → BitVec 32) (x3 : SW.Idx → Elt Ideal .f32) (e : Fin 600000) (j : Fin 128) :
    val_main_v12 (F := Ideal) x0 x1 x3 (ix2 e j) = linMap x0 x3 (rowOf (val_main_v9 (F := Ideal) x1) e) j := by
  rw [val_main_v12_apply]
  refine Finset.sum_congr rfl fun k _ => ?_
  rw [val_main_v11_apply]
  unfold val_main_v10
  have hl : lidx_main_v12 (ix2 e j) k = ix2 e k := funext fun a => Fin.ext (by match a with | ⟨0, _⟩ => rfl | ⟨1, _⟩ => rfl)
  rw [hl, gatherR_apply]
  exact congrArg (fun b => x0 (ix2 (rowOf (val_main_v9 (F := Ideal) x1) e) k) * x3 b)
    (funext fun a => Fin.ext (by match a with | ⟨0, _⟩ => rfl | ⟨1, _⟩ => rfl))
/-- The same along the second row, with W2. -/
theorem ref_bwd_apply (x0 : SNodes.Idx → Elt Ideal .f32) (x1 : SEdges.Idx → BitVec 32) (x4 : SW.Idx → Elt Ideal .f32) (e : Fin 600000) (j : Fin 128) :
    val_main_v21 (F := Ideal) x0 x1 x4 (ix2 e j) = linMap x0 x4 (rowOf (val_main_v18 (F := Ideal) x1) e) j := by
  rw [val_main_v21_apply]
  refine Finset.sum_congr rfl fun k _ => ?_
  rw [val_main_v20_apply]
  unfold val_main_v19
  have hl : lidx_main_v21 (ix2 e j) k = ix2 e k := funext fun a => Fin.ext (by match a with | ⟨0, _⟩ => rfl | ⟨1, _⟩ => rfl)
  rw [hl, gatherR_apply]
  exact congrArg (fun b => x0 (ix2 (rowOf (val_main_v18 (F := Ideal) x1) e) k) * x4 b)
    (funext fun a => Fin.ext (by match a with | ⟨0, _⟩ => rfl | ⟨1, _⟩ => rfl))

/-! ## The kernel's three column blocks are the reference's three products -/

variable (x0 : SNodes.Idx → Elt Ideal .f32) (x1 : SEdges.Idx → BitVec 32) (x2 x3 x4 : SW.Idx → Elt Ideal .f32)

/-- The leftmost 128 columns: nodes * W0^T. -/
theorem self_eq : extractStridedSlice Cert.KernelIdeal.S50000x128 ![0, 0] (allMaps x0 x2 x3 x4) Cert.KernelIdeal.Gen.slices_S50000x384_S50000x128_0_0
    = val_main_v39 (F := Ideal) x0 x2 := by
  funext i
  obtain ⟨n, j, rfl⟩ : ∃ (n : Fin 50000) (j : Fin 128), i = ix2 n j := ⟨i 0, i 1, eq_ix2 i⟩
  rw [ref_self_apply]
  refine (extractStridedSlice_apply ![0, 0] (allMaps x0 x2 x3 x4) Cert.KernelIdeal.Gen.slices_S50000x384_S50000x128_0_0 (ix2 n j)
    (ix2 n (⟨j.val, by have := j.isLt; omega⟩ : Fin 384))
    (fun a => match a with
      | ⟨0, _⟩ => by show n.val = 0 + n.val; omega
      | ⟨1, _⟩ => by show j.val = 0 + j.val; omega)).trans ?_
  exact allMaps_first x0 x2 x3 x4 _ n j rfl rfl

/-- Rows of the middle 128 columns gathered along the first edge row: the reference's first message array. -/
theorem fwd_eq : Host.gather Cert.KernelIdeal.gather_S50000x128_S600000x1_S600000x128_1_0_n_n_0_1_1128 (extractStridedSlice Cert.KernelIdeal.S50000x128 ![0, 128] (allMaps x0 x2 x3 x4) Cert.KernelIdeal.Gen.slices_S50000x384_S50000x128_0_128) (val_main_v9 (F := Ideal) x1)
    = val_main_v12 (F := Ideal) x0 x1 x3 := by
  funext i
  obtain ⟨e, j, rfl⟩ : ∃ (e : Fin 600000) (j : Fin 128), i = ix2 e j := ⟨i 0, i 1, eq_ix2 i⟩
  rw [ref_fwd_apply, gatherK_apply]
  refine (extractStridedSlice_apply ![0, 128] (allMaps x0 x2 x3 x4) Cert.KernelIdeal.Gen.slices_S50000x384_S50000x128_0_128 (ix2 (rowOf (val_main_v9 (F := Ideal) x1) e) j)
    (ix2 (rowOf (val_main_v9 (F := Ideal) x1) e) (⟨128 + j.val, by have := j.isLt; omega⟩ : Fin 384))
    (fun a => match a with
      | ⟨0, _⟩ => by show (rowOf (val_main_v9 (F := Ideal) x1) e).val = 0 + (rowOf (val_main_v9 (F := Ideal) x1) e).val; omega
      | ⟨1, _⟩ => by show 128 + j.val = 128 + j.val; rfl)).trans ?_
  exact allMaps_second x0 x2 x3 x4 _ (rowOf (val_main_v9 (F := Ideal) x1) e) j rfl rfl

/-- Rows of the rightmost 128 columns gathered along the second edge row: the reference's second message array. -/
theorem bwd_eq : Host.gather Cert.KernelIdeal.gather_S50000x128_S600000x1_S600000x128_1_0_n_n_0_1_1128 (extractStridedSlice Cert.KernelIdeal.S50000x128 ![0, 256] (allMaps x0 x2 x3 x4) Cert.KernelIdeal.Gen.slices_S50000x384_S50000x128_0_256) (val_main_v18 (F := Ideal) x1)
    = val_main_v21 (F := Ideal) x0 x1 x4 := by
  funext i
  obtain ⟨e, j, rfl⟩ : ∃ (e : Fin 600000) (j : Fin 128), i = ix2 e j := ⟨i 0, i 1, eq_ix2 i⟩
  rw [ref_bwd_apply, gatherK_apply]
  refine (extractStridedSlice_apply ![0, 256] (allMaps x0 x2 x3 x4) Cert.KernelIdeal.Gen.slices_S50000x384_S50000x128_0_256 (ix2 (rowOf (val_main_v18 (F := Ideal) x1) e) j)
    (ix2 (rowOf (val_main_v18 (F := Ideal) x1) e) (⟨256 + j.val, by have := j.isLt; omega⟩ : Fin 384))
    (fun a => match a with
      | ⟨0, _⟩ => by show (rowOf (val_main_v18 (F := Ideal) x1) e).val = 0 + (rowOf (val_main_v18 (F := Ideal) x1) e).val; omega
      | ⟨1, _⟩ => by show 256 + j.val = 256 + j.val; rfl)).trans ?_
  exact allMaps_third x0 x2 x3 x4 _ (rowOf (val_main_v18 (F := Ideal) x1) e) j rfl rfl

end Cert.Bridge

end
-- ==== Proof.SharedTail.lean ====
/-
  What both programs do after the two gathers is one function of the two message arrays and the edge list: join the two arrays,
  sum them per target node and count the edges per target node, divide the sums by the counts (at least one), and keep the
  quotient where the count is positive, zero elsewhere. Stated for any reading of the floats: nothing here computes.

  On the kernel's side the forty-two host operations between the two calls are read in three stretches, cut before the two joins:
  the twenty-one that end with the two gathers, the two joins, and the rest.
-/
import proofs.«121645_j50620484550703_1_alg».proof.Proof.KernelIdealHost
import proofs.«121645_j50620484550703_1_alg».proof.Proof.ReferenceIdealRead

set_option maxRecDepth 16384

noncomputable section

namespace Cert.Bridge

open Idealize.ShloMosaic Idealize.ShloMosaic.TcCoe Idealize.ShloMosaic.StableHlo
open Idealize.SL Idealize.SL.Sem
open Cert.KernelIdeal.Calls Cert.ReferenceIdeal.ReadP

variable {F : FTy → Type} [FloatOps F]

abbrev SNodes' : Shape := ⟨2, ![50000, 128]⟩
abbrev SEdges' : Shape := ⟨2, ![2, 600000]⟩
abbrev SMsg' : Shape := ⟨2, ![600000, 128]⟩

/-- The mean message per target node, from the two message arrays and the edge list. -/
def meanMsg (a b : SMsg'.Idx → Elt F .f32) (x1 : SEdges'.Idx → BitVec 32) : SNodes'.Idx → Elt F .f32 :=
  select (val_main_call0_v1 (F := F) x1)
    (Host.divf (F := F) (Host.scatterAdd (F := F) Cert.ReferenceIdeal.scatter_S50000x128_S1200000x1_S1200000x128_1_0_0_1 (val_main_v24 (F := F)) (val_main_v25 (F := F) x1)
      (concatenate Cert.ReferenceIdeal.S1200000x128 0 [⟨Cert.ReferenceIdeal.S600000x128, a⟩, ⟨Cert.ReferenceIdeal.S600000x128, b⟩] Cert.ReferenceIdeal.Gen.concatenates_S600000x128_S600000x128_S1200000x128_d0))
      (val_main_v35 (F := F) x1))
    (val_main_call0_v2 (F := F))

/-- The reference's mean message is that function of its two message arrays. -/
theorem ref_msg_eq (x0 : SNodes'.Idx → Elt F .f32) (x1 : SEdges'.Idx → BitVec 32) (x3 x4 : (⟨2, ![128, 128]⟩ : Shape).Idx → Elt F .f32) :
    val_main_v37 (F := F) x0 x1 x3 x4 = meanMsg (val_main_v12 (F := F) x0 x1 x3) (val_main_v21 (F := F) x0 x1 x4) x1 := rfl

variable (m : (ℓ : Loc Cert.KernelIdeal.nD Cert.KernelIdeal.τ Cert.KernelIdeal.sig) → Buf (Elt F) ℓ)

/-- The edge list on core `c`. -/
abbrev edgesOf (c : Dev Cert.KernelIdeal.nD) : SEdges'.Idx → BitVec 32 := m ((c : Thread Cert.KernelIdeal.nD Cert.KernelIdeal.τ).loc Cert.KernelIdeal.main_arg1)

/-! ## The kernel's host operations between the calls, in three stretches -/

/-- The arrays after the first twenty-one operations (the column blocks, the index arithmetic, the two gathers), -/
def Wa (c : Dev Cert.KernelIdeal.nD) : Valuation Cert.KernelIdeal.τ Cert.KernelIdeal.sig (Elt F) := StableHlo.after ((Cert.KernelIdeal.Gen.hostOps1 (F := F)).take 21) (W2 m c)
/-- after the two joins, -/
def Wb (c : Dev Cert.KernelIdeal.nD) : Valuation Cert.KernelIdeal.τ Cert.KernelIdeal.sig (Elt F) := StableHlo.after (((Cert.KernelIdeal.Gen.hostOps1 (F := F)).drop 21).take 2) (Wa m c)
/-- and after the remaining nineteen: the contents the selection starts from. -/
theorem W3_split (c : Dev Cert.KernelIdeal.nD) : W3 m c = StableHlo.after (((Cert.KernelIdeal.Gen.hostOps1 (F := F)).drop 21).drop 2) (Wb m c) := by
  unfold Wb Wa
  rw [← StableHlo.after_append, ← StableHlo.after_append, List.take_append_drop, List.take_append_drop]

/-- The first gathered array: rows of the middle column block of the first call's output, at the first edge row's indices. -/
theorem Wa_v16 (c : Dev Cert.KernelIdeal.nD) : Wa m c (Proc.devRef .tc Cert.KernelIdeal.main_v16)
    = Host.gather Cert.KernelIdeal.gather_S50000x128_S600000x1_S600000x128_1_0_n_n_0_1_1128 (extractStridedSlice Cert.KernelIdeal.S50000x128 ![0, 128] (W2 m c (Proc.devRef .tc Cert.KernelIdeal.main_v6)) Cert.KernelIdeal.Gen.slices_S50000x384_S50000x128_0_128) (val_main_v9 (F := F) (edgesOf m c)) := by
  unfold Wa
  simp only [Cert.KernelIdeal.Gen.hostOps1, List.take_succ_cons, List.take_zero]
  after_results
  rw [W2_v1]
  rfl
/-- The second: rows of the right column block, at the second edge row's indices. -/
theorem Wa_v23 (c : Dev Cert.KernelIdeal.nD) : Wa m c (Proc.devRef .tc Cert.KernelIdeal.main_v23)
    = Host.gather Cert.KernelIdeal.gather_S50000x128_S600000x1_S600000x128_1_0_n_n_0_1_1128 (extractStridedSlice Cert.KernelIdeal.S50000x128 ![0, 256] (W2 m c (Proc.devRef .tc Cert.KernelIdeal.main_v6)) Cert.KernelIdeal.Gen.slices_S50000x384_S50000x128_0_256) (val_main_v18 (F := F) (edgesOf m c)) := by
  unfold Wa
  simp only [Cert.KernelIdeal.Gen.hostOps1, List.take_succ_cons, List.take_zero]
  after_results
  rw [W2_v3]
  rfl
/-- The two edge rows are not written meanwhile. -/
theorem Wa_v1 (c : Dev Cert.KernelIdeal.nD) : Wa m c (Proc.devRef .tc Cert.KernelIdeal.main_v1) = val_main_v1 (F := F) (edgesOf m c) := by
  unfold Wa
  simp only [Cert.KernelIdeal.Gen.hostOps1, List.take_succ_cons, List.take_zero]
  after_results
  rw [W2_v1]
  rfl
theorem Wa_v3 (c : Dev Cert.KernelIdeal.nD) : Wa m c (Proc.devRef .tc Cert.KernelIdeal.main_v3) = val_main_v3 (F := F) (edgesOf m c) := by
  unfold Wa
  simp only [Cert.KernelIdeal.Gen.hostOps1, List.take_succ_cons, List.take_zero]
  after_results
  rw [W2_v3]
  rfl

/-- The joined message array and the joined index list. -/
theorem Wb_v24 (c : Dev Cert.KernelIdeal.nD) : Wb m c (Proc.devRef .tc Cert.KernelIdeal.main_v24)
    = concatenate Cert.KernelIdeal.S1200000x128 0 [⟨Cert.KernelIdeal.S600000x128, Wa m c (Proc.devRef .tc Cert.KernelIdeal.main_v16)⟩, ⟨Cert.KernelIdeal.S600000x128, Wa m c (Proc.devRef .tc Cert.KernelIdeal.main_v23)⟩] Cert.KernelIdeal.Gen.concatenates_S600000x128_S600000x128_S1200000x128_d0 := by
  unfold Wb
  simp only [Cert.KernelIdeal.Gen.hostOps1, List.drop_succ_cons, List.drop_zero, List.take_succ_cons, List.take_zero]
  after_results
theorem Wb_v25 (c : Dev Cert.KernelIdeal.nD) : Wb m c (Proc.devRef .tc Cert.KernelIdeal.main_v25)
    = concatenate Cert.KernelIdeal.S1200000 0 [⟨Cert.KernelIdeal.S600000, Wa m c (Proc.devRef .tc Cert.KernelIdeal.main_v3)⟩, ⟨Cert.KernelIdeal.S600000, Wa m c (Proc.devRef .tc Cert.KernelIdeal.main_v1)⟩] Cert.KernelIdeal.Gen.concatenates_S600000_S600000_S1200000_d0 := by
  unfold Wb
  simp only [Cert.KernelIdeal.Gen.hostOps1, List.drop_succ_cons, List.drop_zero, List.take_succ_cons, List.take_zero]
  after_results

set_option maxHeartbeats 2000000 in
/-- The second call's second input is the mean message of the kernel's two gathered arrays. -/
theorem ker_msg_eq (c : Dev Cert.KernelIdeal.nD) : V4 m c Cert.KernelIdeal.main_v39
    = meanMsg
        (Host.gather Cert.KernelIdeal.gather_S50000x128_S600000x1_S600000x128_1_0_n_n_0_1_1128 (extractStridedSlice Cert.KernelIdeal.S50000x128 ![0, 128] (W2 m c (Proc.devRef .tc Cert.KernelIdeal.main_v6)) Cert.KernelIdeal.Gen.slices_S50000x384_S50000x128_0_128) (val_main_v9 (F := F) (edgesOf m c)))
        (Host.gather Cert.KernelIdeal.gather_S50000x128_S600000x1_S600000x128_1_0_n_n_0_1_1128 (extractStridedSlice Cert.KernelIdeal.S50000x128 ![0, 256] (W2 m c (Proc.devRef .tc Cert.KernelIdeal.main_v6)) Cert.KernelIdeal.Gen.slices_S50000x384_S50000x128_0_256) (val_main_v18 (F := F) (edgesOf m c)))
        (edgesOf m c) := by
  show StableHlo.after Cert.KernelIdeal.Gen.hostOps1_1 (W3 m c) (Proc.devRef .tc Cert.KernelIdeal.main_v39) = _
  rw [W3_split]
  simp only [Cert.KernelIdeal.Gen.hostOps1, Cert.KernelIdeal.Gen.hostOps1_1, List.drop_succ_cons, List.drop_zero]
  after_results_simp
  rw [Wb_v24, Wb_v25, Wa_v16, Wa_v23, Wa_v1, Wa_v3]
  rfl

end Cert.Bridge

end
-- ==== Proof.SameResult.lean ====
/-
  The idealized kernel's result array is the reference's.

  After the two gathers both programs apply one and the same function to the two message arrays and the edge list, and add the
  result to nodes * W0^T clamped at zero. The message arrays and nodes * W0^T are equal on the two sides (the gather of a
  row-wise linear map is the linear map of the gathered rows), so the results are.
-/
import proofs.«121645_j50620484550703_1_alg».proof.Proof.KernelIdealHost
import proofs.«121645_j50620484550703_1_alg».proof.Proof.KernelIdealValue0
import proofs.«121645_j50620484550703_1_alg».proof.Proof.KernelIdealValue1
import proofs.«121645_j50620484550703_1_alg».proof.Proof.SameLinearMaps
import proofs.«121645_j50620484550703_1_alg».proof.Proof.SharedTail

set_option maxRecDepth 16384

noncomputable section

namespace Cert.Bridge

open Idealize.ShloMosaic Idealize.ShloMosaic.TcCoe Idealize.ShloMosaic.ValueIdx Idealize.ShloMosaic.StableHlo
open Idealize.SL Idealize.SL.Sem
open Cert.KernelIdeal.Calls Cert.ReferenceIdeal.ReadP

variable (m : (ℓ : Loc Cert.KernelIdeal.nD Cert.KernelIdeal.τ Cert.KernelIdeal.sig) → Buf (Elt Ideal) ℓ)

/-- The four float argument arrays on core `c`. -/
abbrev nodesOf (c : Dev Cert.KernelIdeal.nD) : SNodes.Idx → Elt Ideal .f32 := m ((c : Thread Cert.KernelIdeal.nD Cert.KernelIdeal.τ).loc Cert.KernelIdeal.main_arg0)
abbrev w0Of (c : Dev Cert.KernelIdeal.nD) : SW.Idx → Elt Ideal .f32 := m ((c : Thread Cert.KernelIdeal.nD Cert.KernelIdeal.τ).loc Cert.KernelIdeal.main_arg2)
abbrev w1Of (c : Dev Cert.KernelIdeal.nD) : SW.Idx → Elt Ideal .f32 := m ((c : Thread Cert.KernelIdeal.nD Cert.KernelIdeal.τ).loc Cert.KernelIdeal.main_arg3)
abbrev w2Of (c : Dev Cert.KernelIdeal.nD) : SW.Idx → Elt Ideal .f32 := m ((c : Thread Cert.KernelIdeal.nD Cert.KernelIdeal.τ).loc Cert.KernelIdeal.main_arg4)

/-- After the first call its output array holds all three linear maps of every node. -/
theorem W2_v6 (c : Dev Cert.KernelIdeal.nD) : W2 m c (Proc.devRef .tc Cert.KernelIdeal.main_v6) = allMaps (nodesOf m c) (w0Of m c) (w1Of m c) (w2Of m c) :=
  (W2_arr m c 2).trans ((final0 (V1 m) c).trans (by rw [V1_arg0, V1_v5]))

/-- The second call's two input arrays are the reference's nodes * W0^T and its mean message. -/
theorem in_self (c : Dev Cert.KernelIdeal.nD) : V4 m c Cert.KernelIdeal.main_v7 = val_main_v39 (F := Ideal) (nodesOf m c) (w0Of m c) := by
  rw [V4_v7, W2_v6, self_eq]
theorem in_msg (c : Dev Cert.KernelIdeal.nD) : V4 m c Cert.KernelIdeal.main_v39
    = val_main_v37 (F := Ideal) (nodesOf m c) (edgesOf m c) (w1Of m c) (w2Of m c) := by
  rw [ker_msg_eq, W2_v6, fwd_eq, bwd_eq, ← ref_msg_eq]

/-- The second call's output array is the reference's result. -/
theorem result_eq (c : Dev Cert.KernelIdeal.nD) : clampSum (V4 m c Cert.KernelIdeal.main_v7) (V4 m c Cert.KernelIdeal.main_v39)
    = val_main_v41 (F := Ideal) (nodesOf m c) (edgesOf m c) (w0Of m c) (w1Of m c) (w2Of m c) := by
  rw [in_self, in_msg]
  rfl

/-- What the kernel's run leaves in its result array. -/
theorem kernel_result (c : Dev Cert.KernelIdeal.nD) : (dat1 (V4 m) c).arrAt 2 Cert.KernelIdeal.cfg1.N
    = val_main_v41 (F := Ideal) (nodesOf m c) (edgesOf m c) (w0Of m c) (w1Of m c) (w2Of m c) :=
  (final1 (V4 m) c).trans (result_eq m c)

end Cert.Bridge

end
-- ==== Proof.lean ====
/-
  The kernel computes a relational graph layer: every node's features go through three linear maps W0, W1, W2 at once (one
  pallas_call multiplying the 50000 x 128 feature array by the 128 x 384 matrix of the three stacked, transposed weight
  matrices), the W1- and W2-images are gathered along the two rows of the edge list and averaged per target node on the host,
  and a second pallas_call adds the W0-image and clamps at zero. The reference gathers node rows first and applies W1, W2 to the
  gathered rows. Over the extended reals the two agree because a row gather commutes with a row-wise linear map:
  entry (e, j) is the sum over k of nodes[r(e), k] * W[j, k] either way, r(e) the clamped index word of edge e.

  The three programs run to the end with their arguments unchanged: the kernel programs by the run through their two calls
  and three stretches of host operations, the reference by its run as a list of host operations.
-/
import proofs.«121645_j50620484550703_1_alg».proof.Defs
import proofs.«121645_j50620484550703_1_alg».proof.Proof.Gen.Kernel
import proofs.«121645_j50620484550703_1_alg».proof.Proof.Gen.KernelIdeal
import proofs.«121645_j50620484550703_1_alg».proof.Proof.Gen.ReferenceIdeal
import proofs.«121645_j50620484550703_1_alg».proof.Proof.Gen.Pre_finite_inputs
import proofs.«121645_j50620484550703_1_alg».proof.Proof.KernelRun
import proofs.«121645_j50620484550703_1_alg».proof.Proof.KernelIdealRun
import proofs.«121645_j50620484550703_1_alg».proof.Proof.ReferenceIdealRun
import proofs.«121645_j50620484550703_1_alg».proof.Proof.ReferenceIdealRead
import proofs.«121645_j50620484550703_1_alg».proof.Proof.SameResult

noncomputable section

namespace Cert.Proof

open Idealize.ShloMosaic Idealize.SL.Sem

theorem frame_k : Cert.frame_Kernel := fun m ρ _ => Cert.Kernel.Calls.frame (F := Bits) m ρ

theorem frame_ki : Cert.frame_KernelIdeal := fun m ρ _ => Cert.KernelIdeal.Calls.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the same result array: the kernel's second call leaves the clamped sum of the W0-image and
    the mean message, which is the reference's result as a function of the five arguments, and the arguments agree. -/
theorem algebraic : Cert.algebraic_KernelIdeal_ReferenceIdeal := by
  intro m ρ m' ρ' _ hagree
  refine ⟨fun c => (Cert.KernelIdeal.Calls.dat1 (Cert.KernelIdeal.Calls.V4 m) c).arrAt 2 Cert.KernelIdeal.cfg1.N,
    Cert.KernelIdeal.Calls.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v41_eq, (hagree c).1, (hagree c).2.1, (hagree c).2.2.1, (hagree c).2.2.2.1, (hagree c).2.2.2.2]
  exact (Cert.Bridge.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
